-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x640000 32) (main_arg2 : FVec F S640000 .f32) (main_arg3 : FVec F S256x128 .f32) (main_arg4 : FVec F S128 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S1x640000 : Shape := ⟨2, ![1, 640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S2000x128 : Shape := ⟨2, ![2000, 128]⟩
abbrev S128x128 : Shape := ⟨2, ![128, 128]⟩
abbrev S1x128 : Shape := ⟨2, ![1, 128]⟩

abbrev nBuf : Space → Nat
  | .hbm => 63
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S50000, .f32⟩
  | .hbm, ⟨15, _⟩ => ⟨S640000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S640000x1, .f32⟩
  | .hbm, ⟨33, _⟩ => ⟨S640000x128, .f32⟩
  | .hbm, ⟨34, _⟩ => ⟨S640000x128, .f32⟩
  | .hbm, ⟨35, _⟩ => ⟨S_, .f32⟩
  | .hbm, ⟨36, _⟩ => ⟨S50000x128, .f32⟩
  | .hbm, ⟨37, _⟩ => ⟨S640000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x1, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S256x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x1, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S1x640000, .i32⟩
  | .hbm, ⟨48, _⟩ => ⟨S640000, .i32⟩
  | .hbm, ⟨49, _⟩ => ⟨S1x640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S640000x1, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S50000x128, .f32⟩
  | .hbm, ⟨65, _⟩ => ⟨S640000x1, .i32⟩
  | .hbm, ⟨66, _⟩ => ⟨S50000x128, .f32⟩
  | .hbm, ⟨67, _⟩ => ⟨S_, .f32⟩
  | .hbm, ⟨68, _⟩ => ⟨S640000, .f32⟩
  | .hbm, ⟨69, _⟩ => ⟨S_, .f32⟩
  | .hbm, ⟨70, _⟩ => ⟨S50000, .f32⟩
  | .hbm, ⟨71, _⟩ => ⟨S640000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x256, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.DenseSpec.lean ====
/-
  One dense layer of the network, as a function of its operands, at the ideal values (every float an extended real).

  A node's new feature vector is relu (x · W[0:128] + a · W[128:256] + b): its own features x against the upper half of the
  weight matrix, its neighbourhood aggregate a against the lower half, a bias, and the positive part. The kernel computes the
  two products apart and adds them; the reference joins (x | a) into one row of 256 and multiplies once. Entry by entry both
  are the same finite sum of products, since a sum over 256 terms is the sum of its first 128 and its last 128 terms.
-/
import Idealize.ShloMosaic.PureOps.Ideal.Laws
import Idealize.ShloMosaic.Lib.ValueIdx

noncomputable section

open scoped BigOperators
open Idealize.ShloMosaic Idealize.ShloMosaic.ValueIdx

namespace Cert.Layer

/-- Row k of the weight matrix's upper half (the rows that meet a node's own features). -/
abbrev lo (k : Fin 128) : Fin 256 := ⟨k.val, by have := k.isLt; omega⟩
/-- Row k of the weight matrix's lower half (the rows that meet the aggregate). -/
abbrev hi (k : Fin 128) : Fin 256 := ⟨128 + k.val, by have := k.isLt; omega⟩

/-- One output entry of the layer, from a node's feature row, its aggregate row, the weights and the bias. -/
def denseRow (xr ar : Fin 128 → EReal) (W : (⟨2, ![256, 128]⟩ : Shape).Idx → EReal)
    (b : (⟨1, ![128]⟩ : Shape).Idx → EReal) (q : Fin 128) : EReal :=
  max (((∑ k : Fin 128, xr k * W (ix2 (lo k) q)) + (∑ k : Fin 128, ar k * W (ix2 (hi k) q))) + b (ix1 q)) 0

/-- The layer on a matrix of R nodes: entry (p, q) is `denseRow` of rows p of the features and of the aggregate. -/
def dense {R : Nat} (X A : (⟨2, ![R, 128]⟩ : Shape).Idx → EReal) (W : (⟨2, ![256, 128]⟩ : Shape).Idx → EReal)
    (b : (⟨1, ![128]⟩ : Shape).Idx → EReal) : (⟨2, ![R, 128]⟩ : Shape).Idx → EReal :=
  fun i => denseRow (fun k => X (ix2 (i 0 : Fin R) k)) (fun k => A (ix2 (i 0 : Fin R) k)) W b (i 1 : Fin 128)

theorem dense_apply {R : Nat} (X A : (⟨2, ![R, 128]⟩ : Shape).Idx → EReal) (W : (⟨2, ![256, 128]⟩ : Shape).Idx → EReal)
    (b : (⟨1, ![128]⟩ : Shape).Idx → EReal) (p : Fin R) (q : Fin 128) :
    dense X A W b (ix2 p q) = denseRow (fun k => X (ix2 p k)) (fun k => A (ix2 p k)) W b q := rfl

/-- The layer on a block of rows is the layer on the whole matrix read at those rows: if rows p of the block are rows
    r of the whole matrices, entry (p, q) of the block's layer is entry (r, q) of the whole layer. -/
theorem dense_block {R R' : Nat} (X A : (⟨2, ![R, 128]⟩ : Shape).Idx → EReal) (x a : (⟨2, ![R', 128]⟩ : Shape).Idx → EReal)
    (W : (⟨2, ![256, 128]⟩ : Shape).Idx → EReal) (b : (⟨1, ![128]⟩ : Shape).Idx → EReal) (p : Fin R') (r : Fin R) (q : Fin 128)
    (hx : ∀ k : Fin 128, x (ix2 p k) = X (ix2 r k)) (ha : ∀ k : Fin 128, a (ix2 p k) = A (ix2 r k)) :
    dense x a W b (ix2 p q) = dense X A W b (ix2 r q) := by
  rw [dense_apply, dense_apply]
  exact congrArg₂ (fun f g => denseRow f g W b q) (funext hx) (funext ha)

/-- A sum over the 256 joined columns is the sum over the first 128 plus the sum over the last 128. -/
theorem sum_split (f : Fin 256 → EReal) : ∑ k : Fin 256, f k = (∑ k : Fin 128, f (lo k)) + ∑ k : Fin 128, f (hi k) := by
  have h := Fin.sum_univ_add (M := EReal) (a := 128) (b := 128) f
  refine h.trans ?_
  refine congrArg₂ (· + ·) (Finset.sum_congr rfl fun k _ => congrArg f (Fin.ext rfl)) (Finset.sum_congr rfl fun k _ => congrArg f (Fin.ext rfl))

end Cert.Layer

end
-- ==== Proof.KernelBody.lean ====
/-
  What the kernel's body stores, as the dense layer of the blocks it loaded.

  The body rounds its three matrix operands to a narrower float format (the identity on the extended reals), cuts the weight
  matrix into its upper and lower 128 rows, multiplies the feature block by the upper half and the aggregate block by the
  lower half, each product accumulated into zeros, adds the two products, adds the bias to every row and keeps the positive
  part. Entry (p, q) of the stored block is therefore
      max ((Σₖ x (p, k) · W (k, q)) + (Σₖ a (p, k) · W (128 + k, q)) + b q, 0),
  the dense layer of the loaded blocks.
-/
import proofs.«176790_j49289044689459_1_alg».proof.Proof.Gen.KernelIdeal.Skeleton
import proofs.«176790_j49289044689459_1_alg».proof.Proof.LibPlainMatmul
import proofs.«176790_j49289044689459_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.Body

open Cert.KernelIdeal Cert.KernelIdeal.Facts₀ Cert.KernelIdeal.Facts Cert.Layer

/-- The upper half of the weight matrix at (k, q) is the matrix at (k, q). -/
theorem upper_apply {φ : FTy} (w : FVec Ideal S256x128 φ) (k q : Fin 128) :
    extractStridedSlice S128x128 ![0, 0] w slices_S256x128_o0_0_S128x128 (ix2 k q) = w (ix2 (lo k) q) :=
  extractStridedSlice_apply ![0, 0] w slices_S256x128_o0_0_S128x128 (ix2 k q) (ix2 (lo k) q) (fun a => match a with
    | ⟨0, _⟩ => by show k.val = 0 + k.val; omega
    | ⟨1, _⟩ => by show q.val = 0 + q.val; omega)

/-- The lower half of the weight matrix at (k, q) is the matrix at (128 + k, q). -/
theorem lower_apply {φ : FTy} (w : FVec Ideal S256x128 φ) (k q : Fin 128) :
    extractStridedSlice S128x128 ![128, 0] w slices_S256x128_o128_0_S128x128 (ix2 k q) = w (ix2 (hi k) q) :=
  extractStridedSlice_apply ![128, 0] w slices_S256x128_o128_0_S128x128 (ix2 k q) (ix2 (hi k) q) (fun a => match a with
    | ⟨0, _⟩ => by show 128 + k.val = 128 + k.val; rfl
    | ⟨1, _⟩ => by show q.val = 0 + q.val; omega)

/-- The bias vector laid out as one row and spread down the block's rows, at (p, q): the bias at q. -/
theorem bias_apply (b : FVec Ideal S128 .f32) (p : Fin 2000) (q : Fin 128) :
    broadcastTo S2000x128 (shapeCast S1x128 b shapeCasts_S128_S1x128) broadcasts_S1x128_S2000x128 (ix2 p q) = b (ix1 q) := by
  rw [Cert.Lib.PlainMatmul.rowSpread_apply]
  exact shapeCast_a_1a_apply b shapeCasts_S128_S1x128 (0 : Fin 1) q

/-- The first region's stored block is the dense layer of its loaded blocks. -/
theorem pay0_eq (x0 x1 : Vec Ideal S2000x128 .f32) (x2 : Vec Ideal S256x128 .f32) (x3 : Vec Ideal S128 .f32) :
    Gen.k0_pay1 (F := Ideal) x0 x1 x2 x3 = dense (R := 2000) x0 x1 x2 x3 := by
  funext j
  obtain ⟨p, q, rfl⟩ : ∃ (p : Fin 2000) (q : Fin 128), j = ix2 p q := ⟨j 0, j 1, eq_ix2 j⟩
  rw [dense_apply]
  unfold Gen.k0_pay1 denseRow
  show max ((FloatOps.matmul _ none _ _ _ (ix2 p q) + FloatOps.matmul _ none _ _ _ (ix2 p q)) + broadcastTo S2000x128 _ _ (ix2 p q)) (Ideal.ofBits .f32 0x00000000#32) = _
  rw [Cert.Lib.PlainMatmul.apply _ rfl rfl rfl rfl rfl rfl, Cert.Lib.PlainMatmul.apply _ rfl rfl rfl rfl rfl rfl, bias_apply,
    Ideal.ofBits_zero_f32]
  simp only [upper_apply, lower_apply, shapeCast_self, truncf, Ideal.truncf_def]

/-- The second region's stored block is the dense layer of its loaded blocks. -/
theorem pay1_eq (x0 x1 : Vec Ideal S2000x128 .f32) (x2 : Vec Ideal S256x128 .f32) (x3 : Vec Ideal S128 .f32) :
    Gen.k1_pay1 (F := Ideal) x0 x1 x2 x3 = dense (R := 2000) x0 x1 x2 x3 := by
  funext j
  obtain ⟨p, q, rfl⟩ : ∃ (p : Fin 2000) (q : Fin 128), j = ix2 p q := ⟨j 0, j 1, eq_ix2 j⟩
  rw [dense_apply]
  unfold Gen.k1_pay1 denseRow
  show max ((FloatOps.matmul _ none _ _ _ (ix2 p q) + FloatOps.matmul _ none _ _ _ (ix2 p q)) + broadcastTo S2000x128 _ _ (ix2 p q)) (Ideal.ofBits .f32 0x00000000#32) = _
  rw [Cert.Lib.PlainMatmul.apply _ rfl rfl rfl rfl rfl rfl, Cert.Lib.PlainMatmul.apply _ rfl rfl rfl rfl rfl rfl, bias_apply,
    Ideal.ofBits_zero_f32]
  simp only [upper_apply, lower_apply, shapeCast_self, truncf, Ideal.truncf_def]

end Cert.KernelIdeal.Body

end
-- ==== Proof.KernelRegion.lean ====
/-
  From the blocks to the arrays: each of the kernel program's two layer regions leaves in its output array the dense step
  of its input arrays.

  A region runs over 25 grid points. At point t the feature, aggregate and output windows hold rows 2000 t … 2000 t + 1999 of
  their 50000-row matrices, and the weight and bias windows hold the whole weight matrix and bias. The body stores the dense
  step of its four blocks, and the dense step of a block of rows is the dense step of the whole matrices read at those rows,
  so what point t writes back is block t of the dense step of the whole arrays. Row r lies in the block of point r / 2000, so
  the 25 blocks cover the output array, which therefore ends holding the dense step of the whole arrays.
-/
import proofs.«176790_j49289044689459_1_alg».proof.Proof.Gen.KernelIdeal.Frame
import proofs.«176790_j49289044689459_1_alg».proof.Proof.KernelBody
import proofs.«176790_j49289044689459_1_alg».proof.Proof.DenseSpec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Region

open Cert.KernelIdeal Cert.KernelIdeal.Gen Cert.KernelIdeal.Body

/-! ## Shared by both regions -/

theorem zero2 : (![0, 0] : Fin 2 → Nat) = fun _ => 0 := funext fun a => by fin_cases a <;> rfl
theorem zero1 : (![0] : Fin 1 → Nat) = fun _ => 0 := funext fun a => by fin_cases a <;> rfl

/-- The dense step on a block of 2000 rows, at an entry, is the dense step on all 50000 rows at the entry the block's
    entry sits at: when the block's feature and aggregate rows are rows `2000 n + ·` of the whole matrices, the
    weights and bias are the whole weights and bias, and the entry (j₀, j₁) of the block is entry (2000 n + j₀, j₁). -/
theorem dense_rows (X A : S50000x128.Idx → EReal) (W : S256x128.Idx → EReal) (b : S128.Idx → EReal)
    (x a : S2000x128.Idx → EReal) (w : S256x128.Idx → EReal) (bb : S128.Idx → EReal) (n : Nat)
    (hx : ∀ (y : S2000x128.Idx) (z : S50000x128.Idx), (z 0).val = 2000 * n + (y 0).val → (z 1).val = (y 1).val → x y = X z)
    (ha : ∀ (y : S2000x128.Idx) (z : S50000x128.Idx), (z 0).val = 2000 * n + (y 0).val → (z 1).val = (y 1).val → a y = A z)
    (hw : w = W) (hb : bb = b) (j : S2000x128.Idx) (i : S50000x128.Idx)
    (hi0 : (i 0).val = 2000 * n + (j 0).val) (hi1 : (i 1).val = (j 1).val) :
    Cert.Layer.dense (R := 2000) x a w bb j = Cert.Layer.dense (R := 50000) X A W b i := by
  subst hw hb
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  exact Cert.Layer.dense_block X A x a w bb p r q' (fun k => hx (ix2 p k) (ix2 r k) hi0 rfl) (fun k => ha (ix2 p k) (ix2 r k) hi0 rfl)

variable (V : (c : Dev nD) → (b : Ref sig .tc) → Buf (Elt Ideal) ((c : Thread nD τ).loc b))

/-! ## Region 0 -/

/-- The printed index maps over the 25 grid points: the feature, aggregate and output windows take block (t, 0), the
    weight and bias windows block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The feature block at point t is rows 2000 t … 2000 t + 1999 of the feature matrix. -/
theorem feat0 (c : Dev nD) (t : Fin cfg0.N) (y : S2000x128.Idx) (z : S50000x128.Idx)
    (h0 : (z 0).val = 2000 * t.val + (y 0).val) (h1 : (z 1).val = (y 1).val) :
    (iblk0 V c 0 t : S2000x128.Idx → EReal) y = (V c main_arg0 : S50000x128.Idx → EReal) z := by
  obtain ⟨e0, e1, -⟩ := idx0 t
  show (V c main_arg0 : S50000x128.Idx → EReal) (((cfg0.win 0).blk t).view.emb y) = _
  congr 1
  funext d
  apply Fin.ext
  match d with
  | ⟨0, _⟩ => show win0_0.index t (0 : Fin 2) * 2000 + 1 * (y 0).val = (z 0).val; omega
  | ⟨1, _⟩ => show win0_0.index t (1 : Fin 2) * 128 + 1 * (y 1).val = (z 1).val; omega

/-- The aggregate block at point t is rows 2000 t … 2000 t + 1999 of the aggregate matrix. -/
theorem agg0 (c : Dev nD) (t : Fin cfg0.N) (y : S2000x128.Idx) (z : S50000x128.Idx)
    (h0 : (z 0).val = 2000 * t.val + (y 0).val) (h1 : (z 1).val = (y 1).val) :
    (iblk0 V c 1 t : S2000x128.Idx → EReal) y = (V c main_v27 : S50000x128.Idx → EReal) z := by
  obtain ⟨-, -, e0, e1, -⟩ := idx0 t
  show (V c main_v27 : S50000x128.Idx → EReal) (((cfg0.win 1).blk t).view.emb y) = _
  congr 1
  funext d
  apply Fin.ext
  match d with
  | ⟨0, _⟩ => show win0_1.index t (0 : Fin 2) * 2000 + 1 * (y 0).val = (z 0).val; omega
  | ⟨1, _⟩ => show win0_1.index t (1 : Fin 2) * 128 + 1 * (y 1).val = (z 1).val; omega

/-- The weight block at every point is the whole weight matrix. -/
theorem wts0 (c : Dev nD) (t : Fin cfg0.N) : (iblk0 V c 2 t : S256x128.Idx → EReal) = (V c main_arg3 : S256x128.Idx → EReal) := by
  obtain ⟨-, -, -, -, e0, e1, -⟩ := idx0 t
  funext y
  show (V c main_arg3 : S256x128.Idx → EReal) (((cfg0.win 2).blk t).view.emb y) = _
  congr 1
  funext d
  apply Fin.ext
  match d with
  | ⟨0, _⟩ => show win0_2.index t (0 : Fin 2) * 256 + 1 * (y 0).val = (y 0).val; omega
  | ⟨1, _⟩ => show win0_2.index t (1 : Fin 2) * 128 + 1 * (y 1).val = (y 1).val; omega

/-- The bias block at every point is the whole bias. -/
theorem bias0 (c : Dev nD) (t : Fin cfg0.N) : (iblk0 V c 3 t : S128.Idx → EReal) = (V c main_arg4 : S128.Idx → EReal) := by
  obtain ⟨-, -, -, -, -, -, e0, -⟩ := idx0 t
  funext y
  show (V c main_arg4 : S128.Idx → EReal) (((cfg0.win 3).blk t).view.emb y) = _
  congr 1
  funext d
  apply Fin.ext
  match d with
  | ⟨0, _⟩ => show win0_3.index t (0 : Fin 1) * 128 + 1 * (y 0).val = (y 0).val; omega

/-- What point t writes back is block t of the dense step of the whole arrays. -/
theorem flushed0 (c : Dev nD) (t : Fin cfg0.N) :
    (Gen.dat0 (F := Ideal) V c).flushed 4 t = ((cfg0.win 4).blk t).view.read (Elt Ideal)
      (Cert.Layer.dense (R := 50000) (V c main_arg0) (V c main_v27) (V c main_arg3) (V c main_arg4)) := by
  show (cfg0.win 4).cut (grid0.coords t) ((Gen.dat0 (F := Ideal) V c).after 4 t) = _
  rw [after0_4]
  unfold out0_4
  rw [View.canon_unit_zero zero2]
  simp only [View.ld_unit_zero (S := S2000x128) zero2, View.ld_unit_zero (S := S256x128) zero2, View.ld_unit_zero (S := S128) zero1]
  rw [pay0_eq]
  obtain ⟨-, -, -, -, -, -, -, e0, e1⟩ := idx0 t
  funext j
  show Cert.Layer.dense (R := 2000) (iblk0 V c 0 t) (iblk0 V c 1 t) (iblk0 V c 2 t) (iblk0 V c 3 t) j
    = Cert.Layer.dense (R := 50000) (V c main_arg0) (V c main_v27) (V c main_arg3) (V c main_arg4) (((cfg0.win 4).blk t).view.emb j)
  refine dense_rows (V c main_arg0) (V c main_v27) (V c main_arg3) (V c main_arg4) (iblk0 V c 0 t) (iblk0 V c 1 t) (iblk0 V c 2 t) (iblk0 V c 3 t) t.val
    (feat0 V c t) (agg0 V c t) (wts0 V c t) (bias0 V c t) j (((cfg0.win 4).blk t).view.emb j) ?_ ?_
  · show win0_4.index t (0 : Fin 2) * 2000 + 1 * (j 0).val = 2000 * t.val + (j 0).val; omega
  · show win0_4.index t (1 : Fin 2) * 128 + 1 * (j 1).val = (j 1).val; omega

/-- Row r of the output is in the block of point r / 2000. -/
theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, e0, e1⟩ := idx0 t
  have ht : t.val = (i 0).val / 2000 := rfl
  refine ⟨t, flush0_4 t, ?_⟩
  show i ∈ ((View.whole main_v28).slice (win0_4.rect t)).set
  rw [View.set_slice_whole, Rect.mem_set_unit]
  intro d
  match d with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The first region leaves the dense step of its input arrays in its output array. -/
theorem region0_value (c : Dev nD) :
    (Gen.dat0 (F := Ideal) V c).arrAt 4 cfg0.N = Cert.Layer.dense (R := 50000) (V c main_arg0) (V c main_v27) (V c main_arg3) (V c main_arg4) :=
  (Gen.dat0 (F := Ideal) V c).arrAt_eq_of_cover 4 _ (fun t _ => flushed0 V c t) (cover0 c)

/-! ## Region 1 -/

/-- The printed index maps over the 25 grid points: the feature, aggregate and output windows take block (t, 0), the
    weight and bias windows block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The feature block at point t is rows 2000 t … 2000 t + 1999 of the feature matrix. -/
theorem feat1 (c : Dev nD) (t : Fin cfg1.N) (y : S2000x128.Idx) (z : S50000x128.Idx)
    (h0 : (z 0).val = 2000 * t.val + (y 0).val) (h1 : (z 1).val = (y 1).val) :
    (iblk1 V c 0 t : S2000x128.Idx → EReal) y = (V c main_v28 : S50000x128.Idx → EReal) z := by
  obtain ⟨e0, e1, -⟩ := idx1 t
  show (V c main_v28 : S50000x128.Idx → EReal) (((cfg1.win 0).blk t).view.emb y) = _
  congr 1
  funext d
  apply Fin.ext
  match d with
  | ⟨0, _⟩ => show win1_0.index t (0 : Fin 2) * 2000 + 1 * (y 0).val = (z 0).val; omega
  | ⟨1, _⟩ => show win1_0.index t (1 : Fin 2) * 128 + 1 * (y 1).val = (z 1).val; omega

/-- The aggregate block at point t is rows 2000 t … 2000 t + 1999 of the aggregate matrix. -/
theorem agg1 (c : Dev nD) (t : Fin cfg1.N) (y : S2000x128.Idx) (z : S50000x128.Idx)
    (h0 : (z 0).val = 2000 * t.val + (y 0).val) (h1 : (z 1).val = (y 1).val) :
    (iblk1 V c 1 t : S2000x128.Idx → EReal) y = (V c main_v44 : S50000x128.Idx → EReal) z := by
  obtain ⟨-, -, e0, e1, -⟩ := idx1 t
  show (V c main_v44 : S50000x128.Idx → EReal) (((cfg1.win 1).blk t).view.emb y) = _
  congr 1
  funext d
  apply Fin.ext
  match d with
  | ⟨0, _⟩ => show win1_1.index t (0 : Fin 2) * 2000 + 1 * (y 0).val = (z 0).val; omega
  | ⟨1, _⟩ => show win1_1.index t (1 : Fin 2) * 128 + 1 * (y 1).val = (z 1).val; omega

/-- The weight block at every point is the whole weight matrix. -/
theorem wts1 (c : Dev nD) (t : Fin cfg1.N) : (iblk1 V c 2 t : S256x128.Idx → EReal) = (V c main_arg5 : S256x128.Idx → EReal) := by
  obtain ⟨-, -, -, -, e0, e1, -⟩ := idx1 t
  funext y
  show (V c main_arg5 : S256x128.Idx → EReal) (((cfg1.win 2).blk t).view.emb y) = _
  congr 1
  funext d
  apply Fin.ext
  match d with
  | ⟨0, _⟩ => show win1_2.index t (0 : Fin 2) * 256 + 1 * (y 0).val = (y 0).val; omega
  | ⟨1, _⟩ => show win1_2.index t (1 : Fin 2) * 128 + 1 * (y 1).val = (y 1).val; omega

/-- The bias block at every point is the whole bias. -/
theorem bias1 (c : Dev nD) (t : Fin cfg1.N) : (iblk1 V c 3 t : S128.Idx → EReal) = (V c main_arg6 : S128.Idx → EReal) := by
  obtain ⟨-, -, -, -, -, -, e0, -⟩ := idx1 t
  funext y
  show (V c main_arg6 : S128.Idx → EReal) (((cfg1.win 3).blk t).view.emb y) = _
  congr 1
  funext d
  apply Fin.ext
  match d with
  | ⟨0, _⟩ => show win1_3.index t (0 : Fin 1) * 128 + 1 * (y 0).val = (y 0).val; omega

/-- What point t writes back is block t of the dense step of the whole arrays. -/
theorem flushed1 (c : Dev nD) (t : Fin cfg1.N) :
    (Gen.dat1 (F := Ideal) V c).flushed 4 t = ((cfg1.win 4).blk t).view.read (Elt Ideal)
      (Cert.Layer.dense (R := 50000) (V c main_v28) (V c main_v44) (V c main_arg5) (V c main_arg6)) := by
  show (cfg1.win 4).cut (grid1.coords t) ((Gen.dat1 (F := Ideal) V c).after 4 t) = _
  rw [after1_4]
  unfold out1_4
  rw [View.canon_unit_zero zero2]
  simp only [View.ld_unit_zero (S := S2000x128) zero2, View.ld_unit_zero (S := S256x128) zero2, View.ld_unit_zero (S := S128) zero1]
  rw [pay1_eq]
  obtain ⟨-, -, -, -, -, -, -, e0, e1⟩ := idx1 t
  funext j
  show Cert.Layer.dense (R := 2000) (iblk1 V c 0 t) (iblk1 V c 1 t) (iblk1 V c 2 t) (iblk1 V c 3 t) j
    = Cert.Layer.dense (R := 50000) (V c main_v28) (V c main_v44) (V c main_arg5) (V c main_arg6) (((cfg1.win 4).blk t).view.emb j)
  refine dense_rows (V c main_v28) (V c main_v44) (V c main_arg5) (V c main_arg6) (iblk1 V c 0 t) (iblk1 V c 1 t) (iblk1 V c 2 t) (iblk1 V c 3 t) t.val
    (feat1 V c t) (agg1 V c t) (wts1 V c t) (bias1 V c t) j (((cfg1.win 4).blk t).view.emb j) ?_ ?_
  · show win1_4.index t (0 : Fin 2) * 2000 + 1 * (j 0).val = 2000 * t.val + (j 0).val; omega
  · show win1_4.index t (1 : Fin 2) * 128 + 1 * (j 1).val = (j 1).val; omega

/-- Row r of the output is in the block of point r / 2000. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, e0, e1⟩ := idx1 t
  have ht : t.val = (i 0).val / 2000 := rfl
  refine ⟨t, flush1_4 t, ?_⟩
  show i ∈ ((View.whole main_v45).slice (win1_4.rect t)).set
  rw [View.set_slice_whole, Rect.mem_set_unit]
  intro d
  match d with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The second region leaves the dense step of its input arrays in its output array. -/
theorem region1_value (c : Dev nD) :
    (Gen.dat1 (F := Ideal) V c).arrAt 4 cfg1.N = Cert.Layer.dense (R := 50000) (V c main_v28) (V c main_v44) (V c main_arg5) (V c main_arg6) :=
  (Gen.dat1 (F := Ideal) V c).arrAt_eq_of_cover 4 _ (fun t _ => flushed1 V c t) (cover1 c)

end Cert.KernelIdeal.Region
end
-- ==== Proof.KernelChain.lean ====
/-
  The aggregation step both programs share, as functions of a feature matrix, the edge list and the edge weights.

  An edge j runs from node src j to node dst j and carries a weight att j. Node i's weighted sum is the sum, over the
  edges j with dst j = i, of the feature row of src j scaled by att j (a row gather, a scaling, a scatter-add into zeros);
  its degree is the number of such edges (a scatter-add of ones), floored at one. A negative source index counts from the
  end of the node list (50000 is added to it) before the rows are gathered.
-/
import proofs.«176790_j49289044689459_1_alg».proof.Proof.Gen.KernelIdeal
import proofs.«176790_j49289044689459_1_alg».proof.Proof.DenseSpec

noncomputable section

namespace Cert.KernelIdeal.Chain

open Cert.KernelIdeal Cert.KernelIdeal.Facts₀ Cert.KernelIdeal.Facts Idealize.ShloMosaic Idealize.ShloMosaic.TcCoe

variable {F : FTy → Type} [FloatOps F]

/-- The edges' source nodes: row 0 of the edge list, as a vector of 640000 node numbers. -/
def srcVec (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The edges' destination nodes: row 1 of the edge list, as a vector of 640000 node numbers. -/
def dstVec (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The source node of each edge, a negative number moved up by the node count, as a column of row indices. -/
def srcCol (e : (⟨S2x640000, .i32⟩ : BufTy).Contents (Elt F)) : (⟨S640000x1, .i32⟩ : BufTy).Contents (Elt F) :=
  broadcastInDim S640000x1 ![0] bcast_S640000_S640000x1_0
    (select (cmpi .slt (srcVec e) (broadcastInDim S640000 ![] bcast_S_S640000 (constantI S_ 32 0#32)))
      (addi (srcVec e) (broadcastInDim S640000 ![] bcast_S_S640000 (constantI S_ 32 50000#32))) (srcVec e))

/-- The destination node of each edge, as a column of row indices. -/
def dstCol (e : (⟨S2x640000, .i32⟩ : BufTy).Contents (Elt F)) : (⟨S640000x1, .i32⟩ : BufTy).Contents (Elt F) :=
  broadcastInDim S640000x1 ![0] bcast_S640000_S640000x1_0 (dstVec e)

/-- Each node's weighted sum of its incoming edges' source rows. -/
def summed (X : (⟨S50000x128, .f32⟩ : BufTy).Contents (Elt F)) (e : (⟨S2x640000, .i32⟩ : BufTy).Contents (Elt F))
    (att : (⟨S640000, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32)) (dstCol e)
    (mulf (Host.gather gather_S50000x128_S640000x1_S640000x128_1_0_n_n_0_1_1128 X (srcCol e))
      (broadcastInDim S640000x128 ![0, 1] bcast_S640000x1_S640000x128_0_1 (broadcastInDim S640000x1 ![0] bcast_S640000_S640000x1_0 att)))

/-- Each node's number of incoming edges, floored at one. -/
def degree (e : (⟨S2x640000, .i32⟩ : BufTy).Contents (Elt F)) : (⟨S50000, .f32⟩ : BufTy).Contents (Elt F) :=
  maximumf (Host.scatterAdd scatter_S50000_S640000x1_S640000_n_0_0_1 (broadcastInDim S50000 ![] bcast_S_S50000 (constant S_ .f32 0x00000000#32))
      (dstCol e) (broadcastInDim S640000 ![] bcast_S_S640000 (constant S_ .f32 0x3F800000#32)))
    (broadcastInDim S50000 ![] bcast_S_S50000 (constant S_ .f32 0x3F800000#32))

/-- A per-node number spread along that node's 128 features. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean aggregate as the kernel's program computes it: the weighted sum times the reciprocal of the floored degree. -/
def aggMul (X : (⟨S50000x128, .f32⟩ : BufTy).Contents (Elt F)) (e : (⟨S2x640000, .i32⟩ : BufTy).Contents (Elt F))
    (att : (⟨S640000, .f32⟩ : BufTy).Contents (Elt F)) : (⟨S50000x128, .f32⟩ : BufTy).Contents (Elt F) :=
  mulf (summed X e att) (spread (Host.divf (broadcastInDim S50000 ![] bcast_S_S50000 (constant S_ .f32 0x3F800000#32)) (degree e)))

/-- The first layer's output: every node's new features from the inputs and their mean aggregate. -/
def hidden (data : (⟨S50000x128, .f32⟩ : BufTy).Contents (Elt Ideal)) (e : (⟨S2x640000, .i32⟩ : BufTy).Contents (Elt Ideal))
    (att : (⟨S640000, .f32⟩ : BufTy).Contents (Elt Ideal)) (w1 : (⟨S256x128, .f32⟩ : BufTy).Contents (Elt Ideal))
    (b1 : (⟨S128, .f32⟩ : BufTy).Contents (Elt Ideal)) : (⟨S50000x128, .f32⟩ : BufTy).Contents (Elt Ideal) :=
  Cert.Layer.dense (R := 50000) data (aggMul (F := Ideal) data e att) w1 b1

/-- The network's output: the second layer applied to the first layer's output and its mean aggregate. -/
def output (data : (⟨S50000x128, .f32⟩ : BufTy).Contents (Elt Ideal)) (e : (⟨S2x640000, .i32⟩ : BufTy).Contents (Elt Ideal))
    (att : (⟨S640000, .f32⟩ : BufTy).Contents (Elt Ideal)) (w1 : (⟨S256x128, .f32⟩ : BufTy).Contents (Elt Ideal))
    (b1 : (⟨S128, .f32⟩ : BufTy).Contents (Elt Ideal)) (w2 : (⟨S256x128, .f32⟩ : BufTy).Contents (Elt Ideal))
    (b2 : (⟨S128, .f32⟩ : BufTy).Contents (Elt Ideal)) : (⟨S50000x128, .f32⟩ : BufTy).Contents (Elt Ideal) :=
  Cert.Layer.dense (R := 50000) (hidden data e att w1 b1) (aggMul (F := Ideal) (hidden data e att w1 b1) e att) w2 b2

end Cert.KernelIdeal.Chain

end
-- ==== Proof.KernelFold.lean ====
/-
  The kernel program's result buffer at the end of the run, read back to the launch memory.

  The run has four segments: a stretch of host operations (the edge columns, the reciprocal of the floored degree, the
  first mean aggregate), the first dense layer as a kernel region, a second stretch of host operations (the mean
  aggregate of the hidden features, which reads the edge columns and the reciprocal degree the first stretch left), and
  the second dense layer as a kernel region. Boundary by boundary each buffer the next segment reads is named as a
  function of the launch contents: a buffer a stretch writes is that stretch's operations applied to what it read, a
  region's output array is the dense layer of the region's entry contents (the two hypotheses of the last theorem), and
  every other buffer is what it was at the boundary before. Read together, the result buffer is the second layer of the
  first layer's output and of that output's mean aggregate.
-/
import proofs.«176790_j49289044689459_1_alg».proof.Proof.Gen.KernelIdeal.Frame
import proofs.«176790_j49289044689459_1_alg».proof.Proof.KernelChain
import Idealize.ShloMosaic.Lib.StableHlo.Run

noncomputable section

namespace Cert.KernelIdeal.Fold

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-! ## The launch contents by name -/

/-- The node features at launch. -/
abbrev data : (⟨S50000x128, .f32⟩ : BufTy).Contents (Elt Ideal) := m ((c : Thread nD τ).loc main_arg0)
/-- The edge list at launch: row 0 the sources, row 1 the destinations. -/
abbrev edges : (⟨S2x640000, .i32⟩ : BufTy).Contents (Elt Ideal) := m ((c : Thread nD τ).loc main_arg1)
/-- The edge weights at launch. -/
abbrev att : (⟨S640000, .f32⟩ : BufTy).Contents (Elt Ideal) := m ((c : Thread nD τ).loc main_arg2)
/-- The first layer's weights at launch. -/
abbrev w1 : (⟨S256x128, .f32⟩ : BufTy).Contents (Elt Ideal) := m ((c : Thread nD τ).loc main_arg3)
/-- The first layer's bias at launch. -/
abbrev b1 : (⟨S128, .f32⟩ : BufTy).Contents (Elt Ideal) := m ((c : Thread nD τ).loc main_arg4)
/-- The second layer's weights at launch. -/
abbrev w2 : (⟨S256x128, .f32⟩ : BufTy).Contents (Elt Ideal) := m ((c : Thread nD τ).loc main_arg5)
/-- The second layer's bias at launch. -/
abbrev b2 : (⟨S128, .f32⟩ : BufTy).Contents (Elt Ideal) := m ((c : Thread nD τ).loc main_arg6)

/-- The reciprocal of each node's floored degree, which the first stretch computes once and the second reads again. -/
abbrev recip (e : (⟨S2x640000, .i32⟩ : BufTy).Contents (Elt Ideal)) : (⟨S50000, .f32⟩ : BufTy).Contents (Elt Ideal) :=
  Host.divf (F := Ideal) (broadcastInDim S50000 ![] bcast_S_S50000 (constant S_ .f32 0x3F800000#32)) (Chain.degree (F := Ideal) e)

/-- The first layer's output, from the launch contents. -/
abbrev hid : (⟨S50000x128, .f32⟩ : BufTy).Contents (Elt Ideal) := Chain.hidden (data m c) (edges m c) (att m c) (w1 m c) (b1 m c)

/-! ## After the first stretch of host operations: the first region's entry

The stretch writes none of the arguments; it writes the two edge columns, the reciprocal degree and the first mean
aggregate, each of which is the stretch's operations applied to the launch contents. -/

/-- The features are not written. -/
theorem V1_arg0 : (V1 m ρ c main_arg0 : (⟨S50000x128, .f32⟩ : BufTy).Contents (Elt Ideal)) = data m c := by
  show StableHlo.after hostOps0 (W0 m ρ c) (Proc.devRef .tc main_arg0) = _
  after_results_simp <;> rfl

/-- The edge weights are not written. -/
theorem V1_arg2 : (V1 m ρ c main_arg2 : (⟨S640000, .f32⟩ : BufTy).Contents (Elt Ideal)) = att m c := by
  show StableHlo.after hostOps0 (W0 m ρ c) (Proc.devRef .tc main_arg2) = _
  after_results_simp <;> rfl

/-- The first layer's weights are not written. -/
theorem V1_arg3 : (V1 m ρ c main_arg3 : (⟨S256x128, .f32⟩ : BufTy).Contents (Elt Ideal)) = w1 m c := by
  show StableHlo.after hostOps0 (W0 m ρ c) (Proc.devRef .tc main_arg3) = _
  after_results_simp <;> rfl

/-- The first layer's bias is not written. -/
theorem V1_arg4 : (V1 m ρ c main_arg4 : (⟨S128, .f32⟩ : BufTy).Contents (Elt Ideal)) = b1 m c := by
  show StableHlo.after hostOps0 (W0 m ρ c) (Proc.devRef .tc main_arg4) = _
  after_results_simp <;> rfl

/-- The second layer's weights are not written. -/
theorem V1_arg5 : (V1 m ρ c main_arg5 : (⟨S256x128, .f32⟩ : BufTy).Contents (Elt Ideal)) = w2 m c := by
  show StableHlo.after hostOps0 (W0 m ρ c) (Proc.devRef .tc main_arg5) = _
  after_results_simp <;> rfl

/-- The second layer's bias is not written. -/
theorem V1_arg6 : (V1 m ρ c main_arg6 : (⟨S128, .f32⟩ : BufTy).Contents (Elt Ideal)) = b2 m c := by
  show StableHlo.after hostOps0 (W0 m ρ c) (Proc.devRef .tc main_arg6) = _
  after_results_simp <;> rfl

/-- The source column: row 0 of the edge list. -/
theorem V1_v1 : (V1 m ρ c main_v1 : (⟨S640000, .i32⟩ : BufTy).Contents (Elt Ideal)) = Chain.srcVec (edges m c) := by
  show StableHlo.after hostOps0 (W0 m ρ c) (Proc.devRef .tc main_v1) = _
  after_results_simp <;> rfl

/-- The destination column: row 1 of the edge list. -/
theorem V1_v3 : (V1 m ρ c main_v3 : (⟨S640000, .i32⟩ : BufTy).Contents (Elt Ideal)) = Chain.dstVec (edges m c) := by
  show StableHlo.after hostOps0 (W0 m ρ c) (Proc.devRef .tc main_v3) = _
  after_results_simp <;> rfl

/-- The reciprocal of the floored degree. -/
theorem V1_v11 : (V1 m ρ c main_v11 : (⟨S50000, .f32⟩ : BufTy).Contents (Elt Ideal)) = recip (edges m c) := by
  show StableHlo.after hostOps0 (W0 m ρ c) (Proc.devRef .tc main_v11) = _
  after_results_simp <;> rfl

/-- The first mean aggregate: the features' weighted sums times the reciprocal degree. -/
theorem V1_v27 : (V1 m ρ c main_v27 : (⟨S50000x128, .f32⟩ : BufTy).Contents (Elt Ideal)) = Chain.aggMul (F := Ideal) (data m c) (edges m c) (att m c) := by
  show StableHlo.after hostOps0 (W0 m ρ c) (Proc.devRef .tc main_v27) = _
  after_results_simp <;> rfl

/-! ## After the first region

Its output array holds the dense layer of its entry contents, which is the first layer's output; a buffer that is none
of its arrays holds what it held at entry. -/

/-- The first region's output array is the first layer's output. -/
theorem V2_v28 (h0 : ∀ V : (c : Dev nD) → (b : Ref sig .tc) → Buf (Elt Ideal) ((c : Thread nD τ).loc b), (Gen.dat0 (F := Ideal) V c).arrAt 4 cfg0.N = Cert.Layer.dense (R := 50000) (V c main_arg0) (V c main_v27) (V c main_arg3) (V c main_arg4)) :
    (W2 m ρ c (Proc.devRef .tc main_v28) : (⟨S50000x128, .f32⟩ : BufTy).Contents (Elt Ideal)) = hid m c := by
  refine (W2_arr m ρ c 4).trans ((h0 (V1 m ρ)).trans ?_)
  rw [V1_arg0, V1_v27, V1_arg3, V1_arg4]
  rfl

/-- The source column is as the first stretch left it. -/
theorem V2_v1 : (W2 m ρ c (Proc.devRef .tc main_v1) : (⟨S640000, .i32⟩ : BufTy).Contents (Elt Ideal)) = Chain.srcVec (edges m c) :=
  (W2_of_ne m ρ c main_v1 (by decide)).trans (V1_v1 m ρ c)

/-- The destination column is as the first stretch left it. -/
theorem V2_v3 : (W2 m ρ c (Proc.devRef .tc main_v3) : (⟨S640000, .i32⟩ : BufTy).Contents (Elt Ideal)) = Chain.dstVec (edges m c) :=
  (W2_of_ne m ρ c main_v3 (by decide)).trans (V1_v3 m ρ c)

/-- The reciprocal degree is as the first stretch left it. -/
theorem V2_v11 : (W2 m ρ c (Proc.devRef .tc main_v11) : (⟨S50000, .f32⟩ : BufTy).Contents (Elt Ideal)) = recip (edges m c) :=
  (W2_of_ne m ρ c main_v11 (by decide)).trans (V1_v11 m ρ c)

/-- The edge weights are as launched. -/
theorem V2_arg2 : (W2 m ρ c (Proc.devRef .tc main_arg2) : (⟨S640000, .f32⟩ : BufTy).Contents (Elt Ideal)) = att m c :=
  (W2_of_ne m ρ c main_arg2 (by decide)).trans (V1_arg2 m ρ c)

/-- The second layer's weights are as launched. -/
theorem V2_arg5 : (W2 m ρ c (Proc.devRef .tc main_arg5) : (⟨S256x128, .f32⟩ : BufTy).Contents (Elt Ideal)) = w2 m c :=
  (W2_of_ne m ρ c main_arg5 (by decide)).trans (V1_arg5 m ρ c)

/-- The second layer's bias is as launched. -/
theorem V2_arg6 : (W2 m ρ c (Proc.devRef .tc main_arg6) : (⟨S128, .f32⟩ : BufTy).Contents (Elt Ideal)) = b2 m c :=
  (W2_of_ne m ρ c main_arg6 (by decide)).trans (V1_arg6 m ρ c)

/-! ## After the second stretch of host operations: the second region's entry

The stretch writes the mean aggregate of the first layer's output — the same operations as the first aggregate, on the
first region's output array, the edge columns, the edge weights and the reciprocal degree — and leaves the first region's
output array and the second layer's weights and bias as they were. -/

/-- The second mean aggregate: the first layer's output's weighted sums times the reciprocal degree. -/
theorem V3_v44 (h0 : ∀ V : (c : Dev nD) → (b : Ref sig .tc) → Buf (Elt Ideal) ((c : Thread nD τ).loc b), (Gen.dat0 (F := Ideal) V c).arrAt 4 cfg0.N = Cert.Layer.dense (R := 50000) (V c main_arg0) (V c main_v27) (V c main_arg3) (V c main_arg4)) :
    (V3 m ρ c main_v44 : (⟨S50000x128, .f32⟩ : BufTy).Contents (Elt Ideal)) = Chain.aggMul (F := Ideal) (hid m c) (edges m c) (att m c) := by
  show StableHlo.after hostOps1 (W2 m ρ c) (Proc.devRef .tc main_v44) = _
  after_results_simp
  rw [V2_v28 m ρ c h0, V2_v1, V2_v3, V2_arg2, V2_v11]
  rfl

/-- The first layer's output is not written. -/
theorem V3_v28 (h0 : ∀ V : (c : Dev nD) → (b : Ref sig .tc) → Buf (Elt Ideal) ((c : Thread nD τ).loc b), (Gen.dat0 (F := Ideal) V c).arrAt 4 cfg0.N = Cert.Layer.dense (R := 50000) (V c main_arg0) (V c main_v27) (V c main_arg3) (V c main_arg4)) : (V3 m ρ c main_v28 : (⟨S50000x128, .f32⟩ : BufTy).Contents (Elt Ideal)) = hid m c := by
  refine Eq.trans ?_ (V2_v28 m ρ c h0)
  show StableHlo.after hostOps1 (W2 m ρ c) (Proc.devRef .tc main_v28) = _
  after_results_simp <;> rfl

/-- The second layer's weights are not written. -/
theorem V3_arg5 : (V3 m ρ c main_arg5 : (⟨S256x128, .f32⟩ : BufTy).Contents (Elt Ideal)) = w2 m c := by
  refine Eq.trans ?_ (V2_arg5 m ρ c)
  show StableHlo.after hostOps1 (W2 m ρ c) (Proc.devRef .tc main_arg5) = _
  after_results_simp <;> rfl

/-- The second layer's bias is not written. -/
theorem V3_arg6 : (V3 m ρ c main_arg6 : (⟨S128, .f32⟩ : BufTy).Contents (Elt Ideal)) = b2 m c := by
  refine Eq.trans ?_ (V2_arg6 m ρ c)
  show StableHlo.after hostOps1 (W2 m ρ c) (Proc.devRef .tc main_arg6) = _
  after_results_simp <;> rfl

/-! ## At the end of the run -/

/-- The result buffer at the end of the run is the network's output on the launch contents: the second region's output
    array is the dense layer of its entry contents, which are the first layer's output, that output's mean aggregate
    and the second layer's weights and bias. -/
theorem result_eq (m : (ℓ : Loc nD τ sig) → Buf (Elt Ideal) ℓ) (ρ : Dev nD → PrngReg) (c : Dev nD)
    (h0 : ∀ V : (c : Dev nD) → (b : Ref sig .tc) → Buf (Elt Ideal) ((c : Thread nD τ).loc b), (Gen.dat0 (F := Ideal) V c).arrAt 4 cfg0.N = Cert.Layer.dense (R := 50000) (V c main_arg0) (V c main_v27) (V c main_arg3) (V c main_arg4))
    (h1 : ∀ V : (c : Dev nD) → (b : Ref sig .tc) → Buf (Elt Ideal) ((c : Thread nD τ).loc b), (Gen.dat1 (F := Ideal) V c).arrAt 4 cfg1.N = Cert.Layer.dense (R := 50000) (V c main_v28) (V c main_v44) (V c main_arg5) (V c main_arg6)) :
    Gen.W4 (F := Ideal) m ρ c (Proc.devRef .tc main_v45)
      = Chain.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 4).trans ((h1 (V3 m ρ)).trans ?_)
  rw [V3_v28 m ρ c h0, V3_v44 m ρ c h0, V3_arg5, V3_arg6]
  rfl

end Cert.KernelIdeal.Fold

end
-- ==== Proof.RefChain.lean ====
/-
  The aggregation step both programs share, as functions of a feature matrix, the edge list and the edge weights.

  An edge j runs from node src j to node dst j and carries a weight att j. Node i's weighted sum is the sum, over the
  edges j with dst j = i, of the feature row of src j scaled by att j (a row gather, a scaling, a scatter-add into zeros);
  its degree is the number of such edges (a scatter-add of ones), floored at one. A negative source index counts from the
  end of the node list (50000 is added to it) before the rows are gathered.
-/
import proofs.«176790_j49289044689459_1_alg».proof.Proof.Gen.ReferenceIdeal

noncomputable section

namespace Cert.ReferenceIdeal.Chain

open Cert.ReferenceIdeal Cert.ReferenceIdeal.Facts₀ Cert.ReferenceIdeal.Facts Idealize.ShloMosaic Idealize.ShloMosaic.TcCoe

variable {F : FTy → Type} [FloatOps F]

/-- The edges' source nodes: row 0 of the edge list, as a vector of 640000 node numbers. -/
def srcVec (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The edges' destination nodes: row 1 of the edge list, as a vector of 640000 node numbers. -/
def dstVec (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The source node of each edge, a negative number moved up by the node count, as a column of row indices. -/
def srcCol (e : (⟨S2x640000, .i32⟩ : BufTy).Contents (Elt F)) : (⟨S640000x1, .i32⟩ : BufTy).Contents (Elt F) :=
  broadcastInDim S640000x1 ![0] bcast_S640000_S640000x1_0
    (select (cmpi .slt (srcVec e) (broadcastInDim S640000 ![] bcast_S_S640000 (constantI S_ 32 0#32)))
      (addi (srcVec e) (broadcastInDim S640000 ![] bcast_S_S640000 (constantI S_ 32 50000#32))) (srcVec e))

/-- The destination node of each edge, as a column of row indices. -/
def dstCol (e : (⟨S2x640000, .i32⟩ : BufTy).Contents (Elt F)) : (⟨S640000x1, .i32⟩ : BufTy).Contents (Elt F) :=
  broadcastInDim S640000x1 ![0] bcast_S640000_S640000x1_0 (dstVec e)

/-- Each node's weighted sum of its incoming edges' source rows. -/
def summed (X : (⟨S50000x128, .f32⟩ : BufTy).Contents (Elt F)) (e : (⟨S2x640000, .i32⟩ : BufTy).Contents (Elt F))
    (att : (⟨S640000, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32)) (dstCol e)
    (mulf (Host.gather gather_S50000x128_S640000x1_S640000x128_1_0_n_n_0_1_1128 X (srcCol e))
      (broadcastInDim S640000x128 ![0, 1] bcast_S640000x1_S640000x128_0_1 (broadcastInDim S640000x1 ![0] bcast_S640000_S640000x1_0 att)))

/-- Each node's number of incoming edges, floored at one. -/
def degree (e : (⟨S2x640000, .i32⟩ : BufTy).Contents (Elt F)) : (⟨S50000, .f32⟩ : BufTy).Contents (Elt F) :=
  maximumf (Host.scatterAdd scatter_S50000_S640000x1_S640000_n_0_0_1 (broadcastInDim S50000 ![] bcast_S_S50000 (constant S_ .f32 0x00000000#32))
      (dstCol e) (broadcastInDim S640000 ![] bcast_S_S640000 (constant S_ .f32 0x3F800000#32)))
    (broadcastInDim S50000 ![] bcast_S_S50000 (constant S_ .f32 0x3F800000#32))

/-- A per-node number spread along that node's 128 features. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The mean aggregate as the reference computes it: the weighted sum divided by the floored degree. -/
def aggDiv (X : (⟨S50000x128, .f32⟩ : BufTy).Contents (Elt F)) (e : (⟨S2x640000, .i32⟩ : BufTy).Contents (Elt F))
    (att : (⟨S640000, .f32⟩ : BufTy).Contents (Elt F)) : (⟨S50000x128, .f32⟩ : BufTy).Contents (Elt F) :=
  Host.divf (summed X e att) (spread (degree e))

/-- One dense layer as the reference computes it: the features and the aggregate joined into rows of 256, one matrix
    product with the weights, the bias added to every row, the positive part. -/
def refDense (X A : (⟨S50000x128, .f32⟩ : BufTy).Contents (Elt F)) (W : (⟨S256x128, .f32⟩ : BufTy).Contents (Elt F))
    (b : (⟨S128, .f32⟩ : BufTy).Contents (Elt F)) : (⟨S50000x128, .f32⟩ : BufTy).Contents (Elt F) :=
  maximumf (addf (Host.dotGeneral dot_S50000x256_S256x128_S50000x128_1_0_0_1_n_n none
        (concatenate S50000x256 1 [⟨S50000x128, X⟩, ⟨S50000x128, A⟩] concatenates_S50000x128_S50000x128_S50000x256_d1) W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The first layer's output as the reference computes it. -/
def refHidden (data : (⟨S50000x128, .f32⟩ : BufTy).Contents (Elt F)) (e : (⟨S2x640000, .i32⟩ : BufTy).Contents (Elt F))
    (att : (⟨S640000, .f32⟩ : BufTy).Contents (Elt F)) (w1 : (⟨S256x128, .f32⟩ : BufTy).Contents (Elt F))
    (b1 : (⟨S128, .f32⟩ : BufTy).Contents (Elt F)) : (⟨S50000x128, .f32⟩ : BufTy).Contents (Elt F) :=
  refDense data (aggDiv data e att) w1 b1

/-- The network's output as the reference computes it. -/
def refOutput (data : (⟨S50000x128, .f32⟩ : BufTy).Contents (Elt F)) (e : (⟨S2x640000, .i32⟩ : BufTy).Contents (Elt F))
    (att : (⟨S640000, .f32⟩ : BufTy).Contents (Elt F)) (w1 : (⟨S256x128, .f32⟩ : BufTy).Contents (Elt F))
    (b1 : (⟨S128, .f32⟩ : BufTy).Contents (Elt F)) (w2 : (⟨S256x128, .f32⟩ : BufTy).Contents (Elt F))
    (b2 : (⟨S128, .f32⟩ : BufTy).Contents (Elt F)) : (⟨S50000x128, .f32⟩ : BufTy).Contents (Elt F) :=
  refDense (refHidden data e att w1 b1) (aggDiv (refHidden data e att w1 b1) e att) w2 b2

end Cert.ReferenceIdeal.Chain

end
-- ==== Proof.RefLayer.lean ====
/-
  The reference's dense step is the layer's specification, at the ideal values.

  The reference joins a node's feature row x and its aggregate row a into one row (x | a) of 256 entries, multiplies the
  joined matrix by the 256 x 128 weight matrix once, adds the bias to every row and takes the positive part. Entry (p, q)
  of the product is the sum over the 256 joined columns k of (x | a)(p, k) * W(k, q). The first 128 columns read x and the
  last 128 read a, so that sum is the sum over k < 128 of x(p, k) * W(k, q) plus the sum over k < 128 of
  a(p, k) * W(128 + k, q): the two partial products of the specification. The bias, broadcast first to one row and then to
  every row, reads b(q) at (p, q); the constant the maximum is taken with is the real number 0.
-/
import proofs.«176790_j49289044689459_1_alg».proof.Proof.RefChain
import proofs.«176790_j49289044689459_1_alg».proof.Proof.DenseSpec
import Idealize.ShloMosaic.Lib.Pipeline.Value
import Idealize.ShloMosaic.Lib.ValueIdx
import Idealize.ShloMosaic.PureOps.Ideal.Laws

noncomputable section

open scoped BigOperators

namespace Cert.ReferenceIdeal.Layer

open Cert.ReferenceIdeal Cert.ReferenceIdeal.Gen Idealize.ShloMosaic Idealize.ShloMosaic.TcCoe Idealize.ShloMosaic.ValueIdx

/-! ## The product's operand indices

At output index i and contraction index c the left operand is read at (i 0, c) and the right operand at (c, i 1). -/

theorem dot_lhs_0 (i : S50000x128.Idx) (c : dot_S50000x256_S256x128_S50000x128_1_0_0_1_n_n.contr.Idx) :
    (dot_S50000x256_S256x128_S50000x128_1_0_0_1_n_n.lhsIdx i c 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem dot_lhs_1 (i : S50000x128.Idx) (c : dot_S50000x256_S256x128_S50000x128_1_0_0_1_n_n.contr.Idx) :
    (dot_S50000x256_S256x128_S50000x128_1_0_0_1_n_n.lhsIdx i c 1).val = (c ⟨0, by decide⟩).val :=
  dot_S50000x256_S256x128_S50000x128_1_0_0_1_n_n.lhsIdx_val_of_single rfl i c
theorem dot_rhs_0 (i : S50000x128.Idx) (c : dot_S50000x256_S256x128_S50000x128_1_0_0_1_n_n.contr.Idx) :
    (dot_S50000x256_S256x128_S50000x128_1_0_0_1_n_n.rhsIdx i c 0).val = (c ⟨0, by decide⟩).val :=
  dot_S50000x256_S256x128_S50000x128_1_0_0_1_n_n.rhsIdx_val_of_single rfl i c
theorem dot_rhs_1 (i : S50000x128.Idx) (c : dot_S50000x256_S256x128_S50000x128_1_0_0_1_n_n.contr.Idx) :
    (dot_S50000x256_S256x128_S50000x128_1_0_0_1_n_n.rhsIdx i c 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- The matrix product at entry (p, q), whatever the left operand: the sum over the 256 columns k of Y(p, k) * W(k, q). -/
theorem dot_apply (Y : (⟨S50000x256, .f32⟩ : BufTy).Contents (Elt Ideal)) (W : (⟨S256x128, .f32⟩ : BufTy).Contents (Elt Ideal))
    (p : Fin 50000) (q : Fin 128) :
    Host.dotGeneral (F := Ideal) (φ₁ := .f32) (φ₂ := .f32) dot_S50000x256_S256x128_S50000x128_1_0_0_1_n_n none Y W (ix2 p q) = ∑ k : Fin 256, Y (ix2 p k) * W (ix2 k q) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 p q) ((ValueIdx.contrEquiv1 dot_S50000x256_S256x128_S50000x128_1_0_0_1_n_n 256 rfl rfl).symm k) = ix2 p k := funext fun a => Fin.ext (by
    match a with
    | ⟨0, _⟩ => exact dot_lhs_0 _ _
    | ⟨1, _⟩ => exact (dot_lhs_1 _ _).trans hk)
  have er : dot_S50000x256_S256x128_S50000x128_1_0_0_1_n_n.rhsIdx (ix2 p q) ((ValueIdx.contrEquiv1 dot_S50000x256_S256x128_S50000x128_1_0_0_1_n_n 256 rfl rfl).symm k) = ix2 k q := funext fun a => Fin.ext (by
    match a with
    | ⟨0, _⟩ => exact (dot_rhs_0 _ _).trans hk
    | ⟨1, _⟩ => exact dot_rhs_1 _ _)
  rw [el, er]

/-! ## The joined row -/

/-- A column below 128 of the joined row (x | a) is that column of x. -/
theorem join_left (X A : (⟨S50000x128, .f32⟩ : BufTy).Contents (Elt Ideal)) (p : Fin 50000) (k : Fin 128) :
    concatenate S50000x256 1 [⟨S50000x128, X⟩, ⟨S50000x128, A⟩] concatenates_S50000x128_S50000x128_S50000x256_d1 (ix2 p (Cert.Layer.lo k))
      = X (ix2 p k) :=
  concatenate_pair_apply_left 1 X A _ (ix2 p (Cert.Layer.lo k)) rfl (ix2 p k) (fun b => match b with
    | ⟨0, _⟩ => rfl
    | ⟨1, _⟩ => rfl)

/-- Column 128 + k of the joined row (x | a) is column k of a. -/
theorem join_right (X A : (⟨S50000x128, .f32⟩ : BufTy).Contents (Elt Ideal)) (p : Fin 50000) (k : Fin 128) :
    concatenate S50000x256 1 [⟨S50000x128, X⟩, ⟨S50000x128, A⟩] concatenates_S50000x128_S50000x128_S50000x256_d1 (ix2 p (Cert.Layer.hi k))
      = A (ix2 p k) :=
  concatenate_pair_apply_right 1 X A _ (ix2 p (Cert.Layer.hi k)) rfl rfl (ix2 p k) (fun b => match b with
    | ⟨0, _⟩ => fun _ => rfl
    | ⟨1, _⟩ => fun h => absurd rfl h)
    (by show k.val + 128 = 128 + k.val; omega)

/-! ## The bias and the zero -/

/-- The bias, spread to one row and then to every row, reads b(q) at entry (p, q). -/
theorem bias_apply (b : (⟨S128, .f32⟩ : BufTy).Contents (Elt Ideal)) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply _ bcast_S1x128_S50000x128_0_1 _ (ix2 p q) (ix2 (⟨0, Nat.one_pos⟩ : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (⟨0, Nat.one_pos⟩ : Fin 1) q) (ix1 q) (fun a => match a with
    | ⟨0, _⟩ => by show q.val = if (128 : Nat) = 1 then 0 else q.val; rw [if_neg (by decide)]))

/-- The constant the positive part is taken against is the real number 0 at every entry. -/
theorem zero_apply (p : Fin 50000) (q : Fin 128) :
    broadcastInDim S50000x128 ![] bcast_S_S50000x128 (constant (F := Ideal) S_ .f32 0x00000000#32) (ix2 p q) = (0 : EReal) :=
  ((broadcastInDim_apply _ bcast_S_S50000x128 _ (ix2 p q) ix0 (fun a => a.elim0)).trans (constant_apply _ _)).trans Ideal.ofBits_zero_f32

/-! ## The layer -/

/-- The reference's dense step, on any feature matrix X and aggregate A, is the layer of the specification. -/
theorem refDense_eq (X A : (⟨S50000x128, .f32⟩ : BufTy).Contents (Elt Ideal)) (W : (⟨S256x128, .f32⟩ : BufTy).Contents (Elt Ideal))
    (b : (⟨S128, .f32⟩ : BufTy).Contents (Elt Ideal)) :
    Cert.ReferenceIdeal.Chain.refDense (F := Ideal) X A W b = Cert.Layer.dense (R := 50000) X A W b := by
  funext i
  obtain ⟨p, q, rfl⟩ : ∃ (p : Fin 50000) (q : Fin 128), i = ix2 p q := ⟨i 0, i 1, eq_ix2 i⟩
  rw [Cert.Layer.dense_apply]
  unfold Cert.ReferenceIdeal.Chain.refDense Cert.Layer.denseRow
  rw [maximumf_apply, addf_apply, dot_apply, bias_apply, zero_apply, Cert.Layer.sum_split]
  refine congrArg₂ max (congrArg₂ (· + ·) (congrArg₂ (· + ·) (Finset.sum_congr rfl fun k _ => ?_) (Finset.sum_congr rfl fun k _ => ?_)) rfl) rfl
  · rw [join_left]
  · rw [join_right]

end Cert.ReferenceIdeal.Layer

end
-- ==== Proof.AggEq.lean ====
/-
  The mean aggregate, computed two ways, is one function.

  With s the weighted sum at an entry (p, q) and d the floored degree of node p, one program forms s · (1 / d) and the other
  s / d. On the extended reals a quotient x / y at a divisor y ≠ 0 is x · y⁻¹, so the first is s · (1 · d⁻¹) = s · d⁻¹ and the
  second is s · d⁻¹. The divisor is d = max (deg, 1) ≥ 1, so it is never zero, whatever the edge list is; nothing about
  finiteness of s is used.

  The weighted sum, the degree and the spreading of a per-node number along the features are spelled once per program, over
  shape records that differ only in the proofs they carry; they are the same functions.
-/
import proofs.«176790_j49289044689459_1_alg».proof.Proof.KernelChain
import proofs.«176790_j49289044689459_1_alg».proof.Proof.RefChain
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.ValueIdx

namespace Cert.Agg

/-! ## The two spellings of the shared steps agree -/

/-- The weighted sum is the same function in both programs. -/
theorem summed_eq (X : (⟨Cert.KernelIdeal.S50000x128, .f32⟩ : BufTy).Contents (Elt Ideal))
    (e : (⟨Cert.KernelIdeal.S2x640000, .i32⟩ : BufTy).Contents (Elt Ideal))
    (att : (⟨Cert.KernelIdeal.S640000, .f32⟩ : BufTy).Contents (Elt Ideal)) :
    Cert.KernelIdeal.Chain.summed (F := Ideal) X e att = Cert.ReferenceIdeal.Chain.summed (F := Ideal) X e att := rfl

/-- The floored degree is the same function in both programs. -/
theorem degree_eq (e : (⟨Cert.KernelIdeal.S2x640000, .i32⟩ : BufTy).Contents (Elt Ideal)) :
    Cert.KernelIdeal.Chain.degree (F := Ideal) e = Cert.ReferenceIdeal.Chain.degree (F := Ideal) e := rfl

/-- Spreading a per-node number along the features is the same function in both programs. -/
theorem spread_eq (v : (⟨Cert.KernelIdeal.S50000, .f32⟩ : BufTy).Contents (Elt Ideal)) :
    Cert.KernelIdeal.Chain.spread (F := Ideal) v = Cert.ReferenceIdeal.Chain.spread (F := Ideal) v := rfl

/-! ## Reading the spread and the degree at an entry -/

/-- A per-node number spread along the features reads, at entry (p, q), the number of node p. -/
theorem spread_apply (v : (⟨Cert.ReferenceIdeal.S50000, .f32⟩ : BufTy).Contents (Elt Ideal)) (i : Cert.ReferenceIdeal.S50000x128.Idx) :
    Cert.ReferenceIdeal.Chain.spread (F := Ideal) v i = v (ix1 (i 0 : Fin 50000)) := by
  unfold Cert.ReferenceIdeal.Chain.spread
  -- the column [50000, 1] read along the features: entry (p, q) reads entry (p, 0)
  refine (broadcastInDim_apply _ _ _ i (ix2 (i 0 : Fin 50000) (⟨0, Nat.one_pos⟩ : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  -- the vector [50000] stood up as a column: entry (p, 0) reads entry p
  exact broadcastInDim_apply _ _ v (ix2 (i 0 : Fin 50000) (⟨0, Nat.one_pos⟩ : Fin 1)) (ix1 (i 0 : Fin 50000)) (fun a => match a with
    | ⟨0, _⟩ => by show (i 0).val = if (50000 : Nat) = 1 then 0 else (i 0).val; rw [if_neg (by decide)])

/-- A maximum with one is not zero. -/
theorem max_one_ne_zero (c : EReal) : max c 1 ≠ 0 := by
  have h : (1 : EReal) ≤ max c 1 := le_max_right c 1
  intro h0
  rw [h0] at h
  exact absurd h (not_le.mpr zero_lt_one)

/-- The floored degree of a node is not zero: it is the maximum of the node's edge count and one. -/
theorem degree_ne_zero (e : (⟨Cert.ReferenceIdeal.S2x640000, .i32⟩ : BufTy).Contents (Elt Ideal)) (j : Cert.ReferenceIdeal.S50000.Idx) :
    Cert.ReferenceIdeal.Chain.degree (F := Ideal) e j ≠ 0 := by
  unfold Cert.ReferenceIdeal.Chain.degree
  rw [maximumf_apply, broadcastInDim_scalar_apply, constant_apply, Ideal.ofBits_one_f32]
  exact max_one_ne_zero _

/-! ## The two mean aggregates -/

/-- The weighted sum times the reciprocal of the floored degree is the weighted sum divided by the floored degree. -/
theorem agg_eq (X : (⟨Cert.KernelIdeal.S50000x128, .f32⟩ : BufTy).Contents (Elt Ideal))
    (e : (⟨Cert.KernelIdeal.S2x640000, .i32⟩ : BufTy).Contents (Elt Ideal))
    (att : (⟨Cert.KernelIdeal.S640000, .f32⟩ : BufTy).Contents (Elt Ideal)) :
    Cert.KernelIdeal.Chain.aggMul (F := Ideal) X e att = Cert.ReferenceIdeal.Chain.aggDiv (F := Ideal) X e att := by
  unfold Cert.KernelIdeal.Chain.aggMul Cert.ReferenceIdeal.Chain.aggDiv
  rw [summed_eq, degree_eq, spread_eq]
  generalize Cert.ReferenceIdeal.Chain.summed (F := Ideal) X e att = s
  funext i
  rw [mulf_apply, hostDivf_apply, spread_apply, spread_apply, hostDivf_apply, broadcastInDim_scalar_apply, constant_apply,
    Ideal.ofBits_one_f32]
  exact Ideal.mul_one_div (degree_ne_zero e _)

end Cert.Agg

end
-- ==== Proof.Bridge.lean ====
/-
  The two programs' networks are one function of the inputs.

  Layer by layer: the reference's dense step is the dense layer of its operands, and its mean aggregate (sum divided by the
  floored degree) is the kernel program's (sum times the reciprocal of the floored degree). So the first layers agree, and
  the second layers, applied to equal first-layer outputs, agree.
-/
import proofs.«176790_j49289044689459_1_alg».proof.Proof.RefLayer
import proofs.«176790_j49289044689459_1_alg».proof.Proof.AggEq

noncomputable section

open Idealize.ShloMosaic Idealize.ShloMosaic.TcCoe

namespace Cert.Bridge

open Cert.ReferenceIdeal

/-- The first layer's output is the same in both programs. -/
theorem hidden_eq (data : (⟨S50000x128, .f32⟩ : BufTy).Contents (Elt Ideal)) (e : (⟨S2x640000, .i32⟩ : BufTy).Contents (Elt Ideal))
    (att : (⟨S640000, .f32⟩ : BufTy).Contents (Elt Ideal)) (w1 : (⟨S256x128, .f32⟩ : BufTy).Contents (Elt Ideal))
    (b1 : (⟨S128, .f32⟩ : BufTy).Contents (Elt Ideal)) :
    Cert.ReferenceIdeal.Chain.refHidden (F := Ideal) data e att w1 b1 = Cert.KernelIdeal.Chain.hidden data e att w1 b1 := by
  unfold Cert.ReferenceIdeal.Chain.refHidden Cert.KernelIdeal.Chain.hidden
  rw [Cert.ReferenceIdeal.Layer.refDense_eq, Cert.Agg.agg_eq]

/-- The network's output is the same in both programs. -/
theorem output_eq (data : (⟨S50000x128, .f32⟩ : BufTy).Contents (Elt Ideal)) (e : (⟨S2x640000, .i32⟩ : BufTy).Contents (Elt Ideal))
    (att : (⟨S640000, .f32⟩ : BufTy).Contents (Elt Ideal)) (w1 : (⟨S256x128, .f32⟩ : BufTy).Contents (Elt Ideal))
    (b1 : (⟨S128, .f32⟩ : BufTy).Contents (Elt Ideal)) (w2 : (⟨S256x128, .f32⟩ : BufTy).Contents (Elt Ideal))
    (b2 : (⟨S128, .f32⟩ : BufTy).Contents (Elt Ideal)) :
    Cert.ReferenceIdeal.Chain.refOutput (F := Ideal) data e att w1 b1 w2 b2 = Cert.KernelIdeal.Chain.output data e att w1 b1 w2 b2 := by
  unfold Cert.ReferenceIdeal.Chain.refOutput Cert.KernelIdeal.Chain.output
  rw [hidden_eq, Cert.ReferenceIdeal.Layer.refDense_eq, Cert.Agg.agg_eq]

end Cert.Bridge

end
-- ==== Proof.lean ====
/-
  A two-layer graph network: each layer replaces a node's 128 features x by relu ((x | mean) · W + b), where mean is the
  average, over the node's incoming edges, of the source node's features scaled by the edge's weight (a node without
  incoming edges divides by one). The kernel program computes the averages with a gather, a scatter-add and a product with
  the reciprocal degree, and the dense step in a kernel over 25 blocks of 2000 nodes as x · W[0:128] + mean · W[128:256] + b;
  the reference divides by the degree and multiplies the joined row (x | mean) by W in one product.

  On the extended reals the two are one function of the inputs:
    * a sum over the 256 joined columns is the sum over its first 128 plus the sum over its last 128 columns;
    * s · (1 / d) = s / d whenever d is not zero, and the floored degree max (deg, 1) is at least one;
    * the gather and the two scatter-adds are the same operations on equal operands in both programs.
  Neither law needs the inputs to be finite, so the precondition is not used.

  The kernel program's run is the generated frame's, restated with the result array named (Proof/KernelRun.lean); each region's
  output array is the dense layer of the arrays it read (Proof/KernelRegion.lean over Proof/KernelBody.lean), and the host
  operations between the regions are read back to the inputs (Proof/KernelFold.lean). The reference's run is the generated one.
  Kernel's idealization rewrote nothing, so it has nothing to preserve.
-/
import proofs.«176790_j49289044689459_1_alg».proof.Defs
import proofs.«176790_j49289044689459_1_alg».proof.Proof.Gen.Kernel
import proofs.«176790_j49289044689459_1_alg».proof.Proof.Gen.Kernel.Skeleton
import proofs.«176790_j49289044689459_1_alg».proof.Proof.Gen.Kernel.Launch
import proofs.«176790_j49289044689459_1_alg».proof.Proof.Gen.Kernel.Points
import proofs.«176790_j49289044689459_1_alg».proof.Proof.Gen.Kernel.Frame
import proofs.«176790_j49289044689459_1_alg».proof.Proof.Gen.KernelIdeal
import proofs.«176790_j49289044689459_1_alg».proof.Proof.Gen.KernelIdeal.Skeleton
import proofs.«176790_j49289044689459_1_alg».proof.Proof.Gen.KernelIdeal.Launch
import proofs.«176790_j49289044689459_1_alg».proof.Proof.Gen.KernelIdeal.Points
import proofs.«176790_j49289044689459_1_alg».proof.Proof.Gen.KernelIdeal.Frame
import proofs.«176790_j49289044689459_1_alg».proof.Proof.Gen.ReferenceIdeal
import proofs.«176790_j49289044689459_1_alg».proof.Proof.Gen.ReferenceIdeal.Run
import proofs.«176790_j49289044689459_1_alg».proof.Proof.Gen.Pre_finite_inputs
import proofs.«176790_j49289044689459_1_alg».proof.Proof.KernelRun
import proofs.«176790_j49289044689459_1_alg».proof.Proof.KernelRegion
import proofs.«176790_j49289044689459_1_alg».proof.Proof.KernelFold
import proofs.«176790_j49289044689459_1_alg».proof.Proof.Bridge
import Idealize.ShloMosaic.Adequacy
import Idealize.ShloMosaic.Init

noncomputable section

namespace Cert.Proof

open Idealize.ShloMosaic Idealize.ShloMosaic.TcCoe Idealize.SL.Sem

/-- The reference's result, as its run states it, is the two layers applied to the inputs: the run's term is the
    layers' operations written out. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v63 (F := Ideal) m c
      = Cert.ReferenceIdeal.Chain.refOutput (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v63
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's output of the inputs: the kernel program by its run, its regions' arrays and the
    host operations between them; the reference by its run and the layer-by-layer equality. -/
theorem algebraic : Cert.algebraic_KernelIdeal_ReferenceIdeal := by
  intro m ρ m' ρ' _ hagree
  refine ⟨fun c => Cert.KernelIdeal.Chain.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result_eq m ρ c
          (fun V => Cert.KernelIdeal.Region.region0_value V c) (fun V => Cert.KernelIdeal.Region.region1_value V c)), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [ref_result, (hagree c).1, (hagree c).2.1, (hagree c).2.2.1, (hagree c).2.2.2.1, (hagree c).2.2.2.2.1,
      (hagree c).2.2.2.2.2.1, (hagree c).2.2.2.2.2.2]
    exact Cert.Bridge.output_eq _ _ _ _ _ _ _

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
